-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v42)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v42) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S128x128 : Shape := ⟨2, ![128, 128]⟩
abbrev S128 : Shape := ⟨1, ![128]⟩
abbrev S1600000 : Shape := ⟨1, ![1600000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S100000x128 .f32) (main_arg1 : FVec F S128x128 .f32) (main_arg2 : FVec F S128 .f32) (main_arg3 : FVec F S128x128 .f32) (main_arg4 : FVec F S128 .f32) (main_arg5 : IVec S1600000 32) (main_arg6 : IVec S1600000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_v13 main_v16
-- ==== Kernel.lean ====
abbrev S100000x128 : Shape := ⟨2, ![100000, 128]⟩
abbrev S128x128 : Shape := ⟨2, ![128, 128]⟩
abbrev S128 : Shape := ⟨1, ![128]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S5000x128 : Shape := ⟨2, ![5000, 128]⟩
abbrev S5000x1 : Shape := ⟨2, ![5000, 1]⟩
abbrev S1x128 : Shape := ⟨2, ![1, 128]⟩

abbrev nBuf : Space → Nat
  | .hbm => 67
  | .vmem => 16
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S128, .f32⟩
  | .hbm, ⟨3, _⟩ => ⟨S128x128, .f32⟩
  | .hbm, ⟨4, _⟩ => ⟨S128, .f32⟩
  | .hbm, ⟨5, _⟩ => ⟨S1600000, .i32⟩
  | .hbm, ⟨6, _⟩ => ⟨S1600000, .i32⟩
  | .hbm, ⟨7, _⟩ => ⟨S_, .f32⟩
  | .hbm, ⟨8, _⟩ => ⟨S1600000, .f32⟩
  | .hbm, ⟨9, _⟩ => ⟨S_, .f32⟩
  | .hbm, ⟨10, _⟩ => ⟨S100000, .f32⟩
  | .hbm, ⟨11, _⟩ => ⟨S1600000x1, .i32⟩
  | .hbm, ⟨12, _⟩ => ⟨S100000, .f32⟩
  | .hbm, ⟨13, _⟩ => ⟨S_, .f32⟩
  | .hbm, ⟨14, _⟩ => ⟨S_, .f32⟩
  | .hbm, ⟨15, _⟩ => ⟨S100000, .f32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S1600000x1, .i32⟩
  | .hbm, ⟨20, _⟩ => ⟨S100000, .f32⟩
  | .hbm, ⟨21, _⟩ => ⟨S_, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S100000x1, .f32⟩
  | .hbm, ⟨32, _⟩ => ⟨S100000x128, .f32⟩
  | .hbm, ⟨33, _⟩ => ⟨S100000x128, .f32⟩
  | .hbm, ⟨34, _⟩ => ⟨S_, .i32⟩
  | .hbm, ⟨35, _⟩ => ⟨S1600000, .i32⟩
  | .hbm, ⟨36, _⟩ => ⟨S1600000, .i1⟩
  | .hbm, ⟨37, _⟩ => ⟨S_, .i32⟩
  | .hbm, ⟨38, _⟩ => ⟨S1600000, .i32⟩
  | .hbm, ⟨39, _⟩ => ⟨S1600000, .i32⟩
  | .hbm, ⟨40, _⟩ => ⟨S1600000, .i32⟩
  | .hbm, ⟨41, _⟩ => ⟨S1600000x1, .i32⟩
  | .hbm, ⟨42, _⟩ => ⟨S1600000x128, .f32⟩
  | .hbm, ⟨43, _⟩ => ⟨S_, .f32⟩
  | .hbm, ⟨44, _⟩ => ⟨S100000x128, .f32⟩
  | .hbm, ⟨45, _⟩ => ⟨S1600000x1, .i32⟩
  | .hbm, ⟨46, _⟩ => ⟨S100000x128, .f32⟩
  | .hbm, ⟨47, _⟩ => ⟨S100000x1, .f32⟩
  | .hbm, ⟨48, _⟩ => ⟨S100000x128, .f32⟩
  | .hbm, ⟨49, _⟩ => ⟨S100000x1, .f32⟩
  | .hbm, ⟨50, _⟩ => ⟨S100000x128, .f32⟩
  | .hbm, ⟨51, _⟩ => ⟨S100000x128, .f32⟩
  | .hbm, ⟨52, _⟩ => ⟨S_, .i32⟩
  | .hbm, ⟨53, _⟩ => ⟨S1600000, .i32⟩
  | .hbm, ⟨54, _⟩ => ⟨S1600000, .i1⟩
  | .hbm, ⟨55, _⟩ => ⟨S_, .i32⟩
  | .hbm, ⟨56, _⟩ => ⟨S1600000, .i32⟩
  | .hbm, ⟨57, _⟩ => ⟨S1600000, .i32⟩
  | .hbm, ⟨58, _⟩ => ⟨S1600000, .i32⟩
  | .hbm, ⟨59, _⟩ => ⟨S1600000x1, .i32⟩
  | .hbm, ⟨60, _⟩ => ⟨S1600000x128, .f32⟩
  | .hbm, ⟨61, _⟩ => ⟨S_, .f32⟩
  | .hbm, ⟨62, _⟩ => ⟨S100000x128, .f32⟩
  | .hbm, ⟨63, _⟩ => ⟨S1600000x1, .i32⟩
  | .hbm, ⟨64, _⟩ => ⟨S100000x128, .f32⟩
  | .hbm, ⟨65, _⟩ => ⟨S100000x1, .f32⟩
  | .hbm, ⟨66, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S5000x1, .f32⟩
  | .local _ .vmem, ⟨3, _⟩ => ⟨S5000x1, .f32⟩
  | .local _ .vmem, ⟨4, _⟩ => ⟨S128x128, .f32⟩
  | .local _ .vmem, ⟨5, _⟩ => ⟨S128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x1, .f32⟩
  | .local _ .vmem, ⟨11, _⟩ => ⟨S5000x1, .f32⟩
  | .local _ .vmem, ⟨12, _⟩ => ⟨S128x128, .f32⟩
  | .local _ .vmem, ⟨13, _⟩ => ⟨S128, .f32⟩
  | .local _ .vmem, ⟨14, _⟩ => ⟨S5000x128, .f32⟩
  | .local _ .vmem, ⟨15, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_call0_v0 : Ref sig .tc := ⟨.hbm, 14, rfl⟩
abbrev main_call0_v1 : Ref sig .tc := ⟨.hbm, 15, rfl⟩
abbrev main_v4 : Ref sig .tc := ⟨.hbm, 16, rfl⟩
abbrev main_cst_2 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_3 : Ref sig .tc := ⟨.hbm, 21, rfl⟩
abbrev main_call1_v0 : Ref sig .tc := ⟨.hbm, 22, rfl⟩
abbrev main_call1_v1 : Ref sig .tc := ⟨.hbm, 23, rfl⟩
abbrev main_v8 : Ref sig .tc := ⟨.hbm, 24, rfl⟩
abbrev main_cst_4 : Ref sig .tc := ⟨.hbm, 25, rfl⟩
abbrev main_v9 : Ref sig .tc := ⟨.hbm, 26, rfl⟩
abbrev main_v10 : Ref sig .tc := ⟨.hbm, 27, rfl⟩
abbrev main_cst_5 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_c : Ref sig .tc := ⟨.hbm, 34, rfl⟩
abbrev main_v16 : Ref sig .tc := ⟨.hbm, 35, rfl⟩
abbrev main_v17 : Ref sig .tc := ⟨.hbm, 36, rfl⟩
abbrev main_c_6 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_cst_7 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_c_8 : Ref sig .tc := ⟨.hbm, 52, rfl⟩
abbrev main_v31 : Ref sig .tc := ⟨.hbm, 53, rfl⟩
abbrev main_v32 : Ref sig .tc := ⟨.hbm, 54, rfl⟩
abbrev main_c_9 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_cst_10 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem4_1 : DmaSem sig := 15

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S5000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S100000x128 : S_.BroadcastsInDim S100000x128 (![] : Fin 0 → Fin S100000x128.rank)
  shapeCasts_S100000_S100000x1 : S100000.ShapeCasts S100000x1
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S100000x1.size a
  hwx0_1 : ∀ i : grid0.Coords, EltTy.bits .f32 = 32 ∨ (Rect.block (s := S100000x1) S5000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x128.size a ≤ S100000x128.size a
  hwx0_4 : ∀ i : grid0.Coords, EltTy.bits .f32 = 32 ∨ (Rect.block (s := S100000x128) S5000x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128.size a ≤ S128.size a
  hwx1_3 : ∀ i : grid1.Coords, EltTy.bits .f32 = 32 ∨ (Rect.block (s := S128) S128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S100000x128.size a
  hwx1_4 : ∀ i : grid1.Coords, EltTy.bits .f32 = 32 ∨ (Rect.block (s := S100000x128) S5000x128.size (cc1_transform_4 i) (hinb1_4 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v25) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v26) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v27) S5000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v40) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v41) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v42) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S100000x128 : Shape := ⟨2, ![100000, 128]⟩
abbrev S128x128 : Shape := ⟨2, ![128, 128]⟩
abbrev S128 : Shape := ⟨1, ![128]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S1x128 : Shape := ⟨2, ![1, 128]⟩

abbrev nBuf : Space → Nat
  | .hbm => 80
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S128, .f32⟩
  | .hbm, ⟨3, _⟩ => ⟨S128x128, .f32⟩
  | .hbm, ⟨4, _⟩ => ⟨S128, .f32⟩
  | .hbm, ⟨5, _⟩ => ⟨S1600000, .i32⟩
  | .hbm, ⟨6, _⟩ => ⟨S1600000, .i32⟩
  | .hbm, ⟨7, _⟩ => ⟨S_, .f32⟩
  | .hbm, ⟨8, _⟩ => ⟨S1600000, .f32⟩
  | .hbm, ⟨9, _⟩ => ⟨S_, .f32⟩
  | .hbm, ⟨10, _⟩ => ⟨S100000, .f32⟩
  | .hbm, ⟨11, _⟩ => ⟨S1600000x1, .i32⟩
  | .hbm, ⟨12, _⟩ => ⟨S100000, .f32⟩
  | .hbm, ⟨13, _⟩ => ⟨S_, .f32⟩
  | .hbm, ⟨14, _⟩ => ⟨S_, .f32⟩
  | .hbm, ⟨15, _⟩ => ⟨S100000, .f32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S1600000x1, .i32⟩
  | .hbm, ⟨20, _⟩ => ⟨S100000, .f32⟩
  | .hbm, ⟨21, _⟩ => ⟨S_, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S100000x1, .f32⟩
  | .hbm, ⟨32, _⟩ => ⟨S100000x128, .f32⟩
  | .hbm, ⟨33, _⟩ => ⟨S100000x128, .f32⟩
  | .hbm, ⟨34, _⟩ => ⟨S_, .i32⟩
  | .hbm, ⟨35, _⟩ => ⟨S1600000, .i32⟩
  | .hbm, ⟨36, _⟩ => ⟨S1600000, .i1⟩
  | .hbm, ⟨37, _⟩ => ⟨S_, .i32⟩
  | .hbm, ⟨38, _⟩ => ⟨S1600000, .i32⟩
  | .hbm, ⟨39, _⟩ => ⟨S1600000, .i32⟩
  | .hbm, ⟨40, _⟩ => ⟨S1600000, .i32⟩
  | .hbm, ⟨41, _⟩ => ⟨S1600000x1, .i32⟩
  | .hbm, ⟨42, _⟩ => ⟨S1600000x128, .f32⟩
  | .hbm, ⟨43, _⟩ => ⟨S_, .f32⟩
  | .hbm, ⟨44, _⟩ => ⟨S100000x128, .f32⟩
  | .hbm, ⟨45, _⟩ => ⟨S1600000x1, .i32⟩
  | .hbm, ⟨46, _⟩ => ⟨S100000x128, .f32⟩
  | .hbm, ⟨47, _⟩ => ⟨S100000x1, .f32⟩
  | .hbm, ⟨48, _⟩ => ⟨S100000x128, .f32⟩
  | .hbm, ⟨49, _⟩ => ⟨S100000x128, .f32⟩
  | .hbm, ⟨50, _⟩ => ⟨S100000x128, .f32⟩
  | .hbm, ⟨51, _⟩ => ⟨S1x128, .f32⟩
  | .hbm, ⟨52, _⟩ => ⟨S100000x128, .f32⟩
  | .hbm, ⟨53, _⟩ => ⟨S100000x128, .f32⟩
  | .hbm, ⟨54, _⟩ => ⟨S_, .f32⟩
  | .hbm, ⟨55, _⟩ => ⟨S100000x128, .f32⟩
  | .hbm, ⟨56, _⟩ => ⟨S100000x128, .f32⟩
  | .hbm, ⟨57, _⟩ => ⟨S100000x1, .f32⟩
  | .hbm, ⟨58, _⟩ => ⟨S100000x128, .f32⟩
  | .hbm, ⟨59, _⟩ => ⟨S100000x128, .f32⟩
  | .hbm, ⟨60, _⟩ => ⟨S_, .i32⟩
  | .hbm, ⟨61, _⟩ => ⟨S1600000, .i32⟩
  | .hbm, ⟨62, _⟩ => ⟨S1600000, .i1⟩
  | .hbm, ⟨63, _⟩ => ⟨S_, .i32⟩
  | .hbm, ⟨64, _⟩ => ⟨S1600000, .i32⟩
  | .hbm, ⟨65, _⟩ => ⟨S1600000, .i32⟩
  | .hbm, ⟨66, _⟩ => ⟨S1600000, .i32⟩
  | .hbm, ⟨67, _⟩ => ⟨S1600000x1, .i32⟩
  | .hbm, ⟨68, _⟩ => ⟨S1600000x128, .f32⟩
  | .hbm, ⟨69, _⟩ => ⟨S_, .f32⟩
  | .hbm, ⟨70, _⟩ => ⟨S100000x128, .f32⟩
  | .hbm, ⟨71, _⟩ => ⟨S1600000x1, .i32⟩
  | .hbm, ⟨72, _⟩ => ⟨S100000x128, .f32⟩
  | .hbm, ⟨73, _⟩ => ⟨S100000x1, .f32⟩
  | .hbm, ⟨74, _⟩ => ⟨S100000x128, .f32⟩
  | .hbm, ⟨75, _⟩ => ⟨S100000x128, .f32⟩
  | .hbm, ⟨76, _⟩ => ⟨S100000x128, .f32⟩
  | .hbm, ⟨77, _⟩ => ⟨S1x128, .f32⟩
  | .hbm, ⟨78, _⟩ => ⟨S100000x128, .f32⟩
  | .hbm, ⟨79, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_call0_v0 : Ref sig .tc := ⟨.hbm, 14, rfl⟩
abbrev main_call0_v1 : Ref sig .tc := ⟨.hbm, 15, rfl⟩
abbrev main_v4 : Ref sig .tc := ⟨.hbm, 16, rfl⟩
abbrev main_cst_2 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_3 : Ref sig .tc := ⟨.hbm, 21, rfl⟩
abbrev main_call1_v0 : Ref sig .tc := ⟨.hbm, 22, rfl⟩
abbrev main_call1_v1 : Ref sig .tc := ⟨.hbm, 23, rfl⟩
abbrev main_v8 : Ref sig .tc := ⟨.hbm, 24, rfl⟩
abbrev main_cst_4 : Ref sig .tc := ⟨.hbm, 25, rfl⟩
abbrev main_v9 : Ref sig .tc := ⟨.hbm, 26, rfl⟩
abbrev main_v10 : Ref sig .tc := ⟨.hbm, 27, rfl⟩
abbrev main_cst_5 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_c : Ref sig .tc := ⟨.hbm, 34, rfl⟩
abbrev main_v16 : Ref sig .tc := ⟨.hbm, 35, rfl⟩
abbrev main_v17 : Ref sig .tc := ⟨.hbm, 36, rfl⟩
abbrev main_c_6 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_cst_7 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_call2_cst : Ref sig .tc := ⟨.hbm, 54, rfl⟩
abbrev main_call2_v0 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_c_8 : Ref sig .tc := ⟨.hbm, 60, rfl⟩
abbrev main_v37 : Ref sig .tc := ⟨.hbm, 61, rfl⟩
abbrev main_v38 : Ref sig .tc := ⟨.hbm, 62, rfl⟩
abbrev main_c_9 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_cst_10 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.DenseLayer.lean ====
/-
  The dense stage of one graph-convolution layer as ONE function of whole arrays, entry by entry.

  For aggregated node features `x : [100000, 128]`, a per-node scale held as a column `n : [100000, 1]`, weights
  `w : [128, 128]` and a bias `b : [128]`, entry `(i, j)` of the layer's output is

      (∑ k, (x[i, k] · n[i, 0]) · w[k, j]) + b[j]

  on the extended reals: row `i` is scaled by its node's factor, contracted with column `j` of the weights, and the
  bias is added. The rectified layer takes the maximum of that number and `0`. Both programs of the certificate
  compute exactly this expression, in this grouping; the only thing that differs between them is how the sum over `k`
  is indexed, so no law of the extended reals beyond re-indexing a finite sum is needed, and finiteness of the inputs is
  never used.
-/
import Idealize.ShloMosaic.PureOps.Ideal
import Idealize.ShloMosaic.Lib.ValueIdx

noncomputable section

open scoped BigOperators

namespace GraphConv

open Idealize.ShloMosaic Idealize.ShloMosaic.ValueIdx

/-- Node features: 100000 nodes, 128 features each. -/
abbrev Nodes : Shape := ⟨2, ![100000, 128]⟩
/-- One number per node, as a column. -/
abbrev NodeCol : Shape := ⟨2, ![100000, 1]⟩
/-- A layer's weight matrix. -/
abbrev Weights : Shape := ⟨2, ![128, 128]⟩
/-- A layer's bias. -/
abbrev Bias : Shape := ⟨1, ![128]⟩

/-- Entry `(i, j)` of the layer before rectification: the scaled row `i` against column `j` of the weights, plus the
    bias at `j`. -/
def denseAt (x : FVec Ideal Nodes .f32) (n : FVec Ideal NodeCol .f32) (w : FVec Ideal Weights .f32) (b : FVec Ideal Bias .f32)
    (i : Fin 100000) (j : Fin 128) : EReal :=
  (∑ k : Fin 128, (x (ix2 i k) * n (ix2 i (0 : Fin 1))) * w (ix2 k j)) + b (ix1 j)

/-- The layer without rectification, as a whole array. -/
def dense (x : FVec Ideal Nodes .f32) (n : FVec Ideal NodeCol .f32) (w : FVec Ideal Weights .f32) (b : FVec Ideal Bias .f32) :
    FVec Ideal Nodes .f32 :=
  fun y => denseAt x n w b (y 0) (y 1)

/-- The rectified layer, as a whole array: the maximum of each entry with zero. -/
def denseRelu (x : FVec Ideal Nodes .f32) (n : FVec Ideal NodeCol .f32) (w : FVec Ideal Weights .f32) (b : FVec Ideal Bias .f32) :
    FVec Ideal Nodes .f32 :=
  fun y => max (denseAt x n w b (y 0) (y 1)) 0

theorem dense_apply (x : FVec Ideal Nodes .f32) (n : FVec Ideal NodeCol .f32) (w : FVec Ideal Weights .f32) (b : FVec Ideal Bias .f32)
    (i : Fin 100000) (j : Fin 128) : dense x n w b (ix2 i j) = denseAt x n w b i j := rfl

theorem denseRelu_apply (x : FVec Ideal Nodes .f32) (n : FVec Ideal NodeCol .f32) (w : FVec Ideal Weights .f32) (b : FVec Ideal Bias .f32)
    (i : Fin 100000) (j : Fin 128) : denseRelu x n w b (ix2 i j) = max (denseAt x n w b i j) 0 := rfl

end GraphConv

end
-- ==== Proof.KernelBlock.lean ====
/-
  What one grid point's kernel body computes, entry by entry, on the extended reals.

  The body loads a block `x : [5000, 128]` of aggregated features, the matching column `n : [5000, 1]` of per-node
  scales, the whole weight matrix `w : [128, 128]` and the bias `b : [128]`; it broadcasts the column along the
  feature axis, multiplies, rounds both factors to bf16 (the identity on the extended reals), contracts the feature axis
  against the weights into a zero accumulator, and adds the bias broadcast along the rows. Entry `(p, q)` of what it
  stores is therefore

      (∑ k, (x[p, k] · n[p, 0]) · w[k, q]) + b[q],

  and the first layer's body takes the maximum of that with `0`. The contraction is read as a sum over `Fin 128` by
  identifying the product's one contracted axis with its coordinate.
-/
import proofs.«143554_j74217034875214_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Block

open Cert.KernelIdeal Cert.KernelIdeal.Gen Idealize.ShloMosaic Idealize.ShloMosaic.ValueIdx

/-! ## The product's operand indices, axis by axis -/

/-- The left operand's row is the output's row. -/
theorem lhs_row (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- The left operand's column is the contracted coordinate. -/
theorem lhs_col (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
/-- The right operand's row is the contracted coordinate. -/
theorem rhs_row (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
/-- The right operand's column is the output's column. -/
theorem rhs_col (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The block's matrix product into a zero accumulator, at `(p, q)`: row `p` of the left factor against column `q` of
    the right one. -/
theorem matmul_at (l : FVec Ideal S5000x128 .bf16) (r : FVec Ideal S128x128 .bf16) (p : Fin 5000) (q : Fin 128) :
    matmul dot_S5000x128_S128x128_S5000x128_1_0_0_1_n_n none l r (constant S5000x128 .f32 0x00000000#32) (ix2 p q)
      = ∑ k : Fin 128, l (ix2 p k) * r (ix2 k q) := by
  simp only [matmul]
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact lhs_row _ _
    | ⟨1, _⟩ => exact (lhs_col _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (rhs_row _ _).trans hk
    | ⟨1, _⟩ => exact rhs_col _ _)
  rw [el, er]

/-! ## The layout operations of the body, at an index -/

/-- The scale column broadcast along the features reads, at `(p, k)`, the column's entry for row `p`. -/
theorem col_bcast_at (n : FVec Ideal S5000x1 .f32) (h : S5000x1.Broadcasts S5000x128) (p : Fin 5000) (k : Fin 128) :
    broadcastTo S5000x128 n h (ix2 p k) = n (ix2 p (0 : Fin 1)) := by
  refine broadcastTo_apply n h (ix2 p k) (ix2 p (0 : Fin 1)) fun ax => ?_
  match ax with
  | ⟨0, _⟩ =>
    show p.val = if (5000 : Nat) = 1 then 0 else p.val
    rw [if_neg (by decide)]
  | ⟨1, _⟩ =>
    show (0 : Nat) = if (1 : Nat) = 1 then 0 else k.val
    rw [if_pos rfl]

/-- The bias as a row broadcast over the block's rows reads, at `(p, q)`, the bias at `q`. -/
theorem bias_bcast_at (b : FVec Ideal S128 .f32) (hc : S128.ShapeCasts S1x128) (hb : S1x128.Broadcasts S5000x128) (p : Fin 5000) (q : Fin 128) :
    broadcastTo S5000x128 (shapeCast S1x128 b hc) hb (ix2 p q) = b (ix1 q) := by
  rw [broadcastTo_1b_ab_apply (shapeCast S1x128 b hc) hb p q]
  exact shapeCast_a_1a_apply b hc (0 : Fin 1) q

/-! ## The two payloads -/

/-- Before rectification: the scaled row against the weights' column, plus the bias. -/
theorem pay_plain_at (x : Vec Ideal S5000x128 .f32) (n : Vec Ideal S5000x1 .f32) (w : Vec Ideal S128x128 .f32) (b : Vec Ideal S128 .f32)
    (p : Fin 5000) (q : Fin 128) :
    k1_pay1 (F := Ideal) x n w b (ix2 p q)
      = (∑ k : Fin 128, (x (ix2 p k) * n (ix2 p (0 : Fin 1))) * w (ix2 k q)) + b (ix1 q) := by
  unfold k1_pay1
  simp only [shapeCast_self]
  rw [addf_apply, matmul_at, bias_bcast_at]
  refine congrArg (· + b (ix1 q)) (Finset.sum_congr rfl fun k _ => ?_)
  rw [truncf_apply, truncf_apply, mulf_apply, col_bcast_at]

/-- The first layer's payload: the same number, rectified. -/
theorem pay_relu_at (x : Vec Ideal S5000x128 .f32) (n : Vec Ideal S5000x1 .f32) (w : Vec Ideal S128x128 .f32) (b : Vec Ideal S128 .f32)
    (p : Fin 5000) (q : Fin 128) :
    k0_pay1 (F := Ideal) x n w b (ix2 p q)
      = max ((∑ k : Fin 128, (x (ix2 p k) * n (ix2 p (0 : Fin 1))) * w (ix2 k q)) + b (ix1 q)) 0 := by
  unfold k0_pay1
  simp only [shapeCast_self]
  rw [maximumf_apply, broadcast_apply, addf_apply, matmul_at, bias_bcast_at]
  refine congrArg₂ max (congrArg (· + b (ix1 q)) (Finset.sum_congr rfl fun k _ => ?_)) ?_
  · rw [truncf_apply, truncf_apply, mulf_apply, col_bcast_at]
  · exact Ideal.ofBits_zero_f32

end Cert.KernelIdeal.Block

end
-- ==== Proof.KernelRegion.lean ====
/-
  What each pallas_call leaves in its output array, as ONE function of the arrays the call finds on entry.

  Both calls run a grid of 20 points over row blocks of 5000 nodes. At point `t` the features' window and the scale
  column's window hold rows `5000·t … 5000·t + 4999` of their arrays, the weights' and the bias's windows hold the whole
  arrays, and the output window's block is written back to the same rows of the output. So row `5000·t + p` of the output
  is row `p` of what point `t` computed from row `5000·t + p` of the features and of the scales: the twenty blocks are
  restrictions of one whole-array function, the dense layer of `DenseLayer.lean` (rectified in the first call), and since
  every row lies in exactly the block `row / 5000` they cover the array.

  Everything is stated at the entry contents `V` as a parameter, so that it serves whichever contents the run reaches
  the call with.
-/
import proofs.«143554_j74217034875214_1_alg».proof.Proof.Gen.KernelIdeal.Frame
import proofs.«143554_j74217034875214_1_alg».proof.Proof.DenseLayer
import proofs.«143554_j74217034875214_1_alg».proof.Proof.KernelBlock

set_option maxRecDepth 16384

noncomputable section

open scoped BigOperators

namespace Cert.KernelIdeal.Region

open Cert.KernelIdeal Cert.KernelIdeal.Gen Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem off2 : (![0, 0] : Fin 2 → Nat) = fun _ => 0 := funext fun a => by fin_cases a <;> rfl
theorem off1 : (![0] : Fin 1 → Nat) = fun _ => 0 := funext fun a => by fin_cases a <;> rfl

/-- Row `p` of block `t` is row `5000·t + p` of the array (either grid has 20 points). -/
def row (t : Fin 20) (p : Fin 5000) : Fin 100000 := ⟨t.val * 5000 + p.val, by have := t.isLt; have := p.isLt; omega⟩

/-! # The first call (rectified) -/

section First

/-- The body's one store, through the whole staging buffer, leaves its payload of the loaded blocks. -/
theorem out0_eq (x0 : Vec Ideal S5000x128 .f32) (x1 : Vec Ideal S5000x1 .f32) (x2 : Vec Ideal S128x128 .f32) (x3 : Vec Ideal S128 .f32) :
    out0_4 (F := Ideal) x0 x1 x2 x3 = k0_pay1 x0 x1 x2 x3 := by
  unfold out0_4
  rw [View.canon_unit_zero off2]
  simp only [View.ld_unit_zero (S := S5000x128) off2, View.ld_unit_zero (S := S5000x1) off2, View.ld_unit_zero (S := S128x128) off2, View.ld_unit_zero (S := S128) off1]

/-- The printed index maps, decided over the grid: the row-blocked windows sit at block `(t, 0)`, the whole-array ones at
    block `0`. -/
theorem idx0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = t.val ∧ win0_4.index t (1 : Fin 2) = 0 :=
  (by decide +kernel : ∀ t : Fin grid0.N, _)

/-- The features' block at `t`, at `(p, k)`: the array at row `5000·t + p`. -/
theorem blk0_feat (c : Dev nD) (t : Fin cfg0.N) (p : Fin 5000) (k : Fin 128) :
    iblk0 V c 0 t (ix2 p k) = V c main_v25 (ix2 (row t p) k) := by
  obtain ⟨e0, e1, -⟩ := idx0 t
  show V c main_v25 (((cfg0.win 0).blk t).view.emb (ix2 p k)) = V c main_v25 (ix2 (row t p) k)
  refine congrArg (V c main_v25) (funext fun a => Fin.ext ?_)
  match a with
  | ⟨0, _⟩ => show win0_0.index t (0 : Fin 2) * 5000 + 1 * p.val = t.val * 5000 + p.val; rw [e0]; omega
  | ⟨1, _⟩ => show win0_0.index t (1 : Fin 2) * 128 + 1 * k.val = k.val; rw [e1]; omega

/-- The scale column's block at `t`, at `(p, 0)`: the column at row `5000·t + p`. -/
theorem blk0_scale (c : Dev nD) (t : Fin cfg0.N) (p : Fin 5000) :
    iblk0 V c 1 t (ix2 p (0 : Fin 1)) = V c main_v26 (ix2 (row t p) (0 : Fin 1)) := by
  obtain ⟨-, -, e0, e1, -⟩ := idx0 t
  show V c main_v26 (((cfg0.win 1).blk t).view.emb (ix2 p (0 : Fin 1))) = V c main_v26 (ix2 (row t p) (0 : Fin 1))
  refine congrArg (V c main_v26) (funext fun a => Fin.ext ?_)
  match a with
  | ⟨0, _⟩ => show win0_1.index t (0 : Fin 2) * 5000 + 1 * p.val = t.val * 5000 + p.val; rw [e0]; omega
  | ⟨1, _⟩ => show win0_1.index t (1 : Fin 2) * 1 + 1 * 0 = 0; rw [e1]

/-- The weights' block is the whole matrix. -/
theorem blk0_weight (c : Dev nD) (t : Fin cfg0.N) (k q : Fin 128) :
    iblk0 V c 2 t (ix2 k q) = V c main_arg1 (ix2 k q) := by
  obtain ⟨-, -, -, -, e0, e1, -⟩ := idx0 t
  show V c main_arg1 (((cfg0.win 2).blk t).view.emb (ix2 k q)) = V c main_arg1 (ix2 k q)
  refine congrArg (V c main_arg1) (funext fun a => Fin.ext ?_)
  match a with
  | ⟨0, _⟩ => show win0_2.index t (0 : Fin 2) * 128 + 1 * k.val = k.val; rw [e0]; omega
  | ⟨1, _⟩ => show win0_2.index t (1 : Fin 2) * 128 + 1 * q.val = q.val; rw [e1]; omega

/-- The bias's block is the whole vector. -/
theorem blk0_bias (c : Dev nD) (t : Fin cfg0.N) (q : Fin 128) :
    iblk0 V c 3 t (ix1 q) = V c main_arg2 (ix1 q) := by
  obtain ⟨-, -, -, -, -, -, e0, -⟩ := idx0 t
  show V c main_arg2 (((cfg0.win 3).blk t).view.emb (ix1 q)) = V c main_arg2 (ix1 q)
  refine congrArg (V c main_arg2) (funext fun a => Fin.ext ?_)
  match a with
  | ⟨0, _⟩ => show win0_3.index t (0 : Fin 1) * 128 + 1 * q.val = q.val; rw [e0]; omega

/-- An element of the output's block at `t` sits at row `5000·t + p` of the output. -/
theorem emb0_out (t : Fin cfg0.N) (p : Fin 5000) (q : Fin 128) :
    ((cfg0.win 4).blk t).view.emb (ix2 p q) = (ix2 (row t p) q : S100000x128.Idx) := by
  obtain ⟨-, -, -, -, -, -, -, e0, e1⟩ := idx0 t
  refine funext fun a => Fin.ext ?_
  match a with
  | ⟨0, _⟩ => show win0_4.index t (0 : Fin 2) * 5000 + 1 * p.val = t.val * 5000 + p.val; rw [e0]; omega
  | ⟨1, _⟩ => show win0_4.index t (1 : Fin 2) * 128 + 1 * q.val = q.val; rw [e1]; omega

/-- WHAT POINT `t` WRITES BACK is block `t` of the rectified dense layer of the arrays the call finds. -/
theorem flushed0_eq (c : Dev nD) (t : Fin cfg0.N) :
    (dat0 V c).flushed 4 t = ((cfg0.win 4).blk t).view.read (Elt Ideal)
      (GraphConv.denseRelu (V c main_v25) (V c main_v26) (V c main_arg1) (V c main_arg2)) := by
  show (cfg0.win 4).cut (grid0.coords t) ((dat0 V c).after 4 t) = _
  rw [after0_4, out0_eq]
  funext j
  obtain ⟨p, q, rfl⟩ : ∃ (p : Fin 5000) (q : Fin 128), j = ix2 p q := ⟨j 0, j 1, eq_ix2 j⟩
  show k0_pay1 (iblk0 V c 0 t) (iblk0 V c 1 t) (iblk0 V c 2 t) (iblk0 V c 3 t) (ix2 p q)
    = GraphConv.denseRelu (V c main_v25) (V c main_v26) (V c main_arg1) (V c main_arg2) (((cfg0.win 4).blk t).view.emb (ix2 p q))
  rw [emb0_out t p q]
  refine (Block.pay_relu_at (iblk0 V c 0 t) (iblk0 V c 1 t) (iblk0 V c 2 t) (iblk0 V c 3 t) p q).trans ?_
  rw [GraphConv.denseRelu_apply]
  unfold GraphConv.denseAt
  rw [blk0_scale V c t p, blk0_bias V c t q]
  refine congrArg (fun s => max (s + V c main_arg2 (ix1 q)) 0) (Finset.sum_congr rfl fun k _ => ?_)
  rw [blk0_feat V c t p k, blk0_weight V c t k q]

/-- An index of the output is in point `t`'s block iff each coordinate is in the block's range on its axis. -/
theorem mem_blk0 (t : Fin cfg0.N) (i : S100000x128.Idx) :
    i ∈ ((cfg0.win 4).blk t).view.set ↔ ∀ a : Fin 2, win0_4.index t a * S5000x128.size a ≤ (i a).val ∧ (i a).val < win0_4.index t a * S5000x128.size a + S5000x128.size a := by
  show i ∈ ((View.whole main_v27).slice (win0_4.rect t)).set ↔ _
  rw [View.set_slice_whole, Rect.mem_set_unit]
  exact Iff.rfl

/-- Every index of the output lies in the block of the point `row / 5000`. -/
theorem cover0 (i : S100000x128.Idx) :
    ∃ t : Fin cfg0.N, (cfg0.win 4).flush t = true ∧ i ∈ ((cfg0.win 4).blk t).view.set := by
  have hi0 : (i 0).val < 100000 := (i 0).isLt
  have hi1 : (i 1).val < 128 := (i 1).isLt
  have ht : (i 0).val / 5000 < cfg0.N := by show (i 0).val / 5000 < 20; omega
  obtain ⟨-, -, -, -, -, -, -, e0, e1⟩ := idx0 ⟨(i 0).val / 5000, ht⟩
  refine ⟨⟨(i 0).val / 5000, ht⟩, flush0_4 _, ?_⟩
  rw [mem_blk0]
  intro a
  match a with
  | ⟨0, _⟩ =>
    show win0_4.index ⟨(i 0).val / 5000, ht⟩ (0 : Fin 2) * 5000 ≤ (i 0).val ∧ (i 0).val < win0_4.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win0_4.index ⟨(i 0).val / 5000, ht⟩ (1 : Fin 2) * 128 ≤ (i 1).val ∧ (i 1).val < win0_4.index ⟨(i 0).val / 5000, ht⟩ (1 : Fin 2) * 128 + 128
    rw [e1]; omega

/-- THE OUTPUT ARRAY after the first call: the rectified dense layer of the arrays the call finds. -/
theorem array0 (c : Dev nD) :
    (dat0 V c).arrAt 4 cfg0.N = GraphConv.denseRelu (V c main_v25) (V c main_v26) (V c main_arg1) (V c main_arg2) :=
  (dat0 V c).arrAt_eq_of_cover 4 _ (fun t _ => flushed0_eq V c t) cover0

end First

/-! # The second call (not rectified) -/

section Second

/-- The body's one store, through the whole staging buffer, leaves its payload of the loaded blocks. -/
theorem out1_eq (x0 : Vec Ideal S5000x128 .f32) (x1 : Vec Ideal S5000x1 .f32) (x2 : Vec Ideal S128x128 .f32) (x3 : Vec Ideal S128 .f32) :
    out1_4 (F := Ideal) x0 x1 x2 x3 = k1_pay1 x0 x1 x2 x3 := by
  unfold out1_4
  rw [View.canon_unit_zero off2]
  simp only [View.ld_unit_zero (S := S5000x128) off2, View.ld_unit_zero (S := S5000x1) off2, View.ld_unit_zero (S := S128x128) off2, View.ld_unit_zero (S := S128) off1]

/-- The printed index maps, decided over the grid: the row-blocked windows sit at block `(t, 0)`, the whole-array ones at
    block `0`. -/
theorem idx1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 1) = 0
    ∧ win1_4.index t (0 : Fin 2) = t.val ∧ win1_4.index t (1 : Fin 2) = 0 :=
  (by decide +kernel : ∀ t : Fin grid1.N, _)

/-- The features' block at `t`, at `(p, k)`: the array at row `5000·t + p`. -/
theorem blk1_feat (c : Dev nD) (t : Fin cfg1.N) (p : Fin 5000) (k : Fin 128) :
    iblk1 V c 0 t (ix2 p k) = V c main_v40 (ix2 (row t p) k) := by
  obtain ⟨e0, e1, -⟩ := idx1 t
  show V c main_v40 (((cfg1.win 0).blk t).view.emb (ix2 p k)) = V c main_v40 (ix2 (row t p) k)
  refine congrArg (V c main_v40) (funext fun a => Fin.ext ?_)
  match a with
  | ⟨0, _⟩ => show win1_0.index t (0 : Fin 2) * 5000 + 1 * p.val = t.val * 5000 + p.val; rw [e0]; omega
  | ⟨1, _⟩ => show win1_0.index t (1 : Fin 2) * 128 + 1 * k.val = k.val; rw [e1]; omega

/-- The scale column's block at `t`, at `(p, 0)`: the column at row `5000·t + p`. -/
theorem blk1_scale (c : Dev nD) (t : Fin cfg1.N) (p : Fin 5000) :
    iblk1 V c 1 t (ix2 p (0 : Fin 1)) = V c main_v41 (ix2 (row t p) (0 : Fin 1)) := by
  obtain ⟨-, -, e0, e1, -⟩ := idx1 t
  show V c main_v41 (((cfg1.win 1).blk t).view.emb (ix2 p (0 : Fin 1))) = V c main_v41 (ix2 (row t p) (0 : Fin 1))
  refine congrArg (V c main_v41) (funext fun a => Fin.ext ?_)
  match a with
  | ⟨0, _⟩ => show win1_1.index t (0 : Fin 2) * 5000 + 1 * p.val = t.val * 5000 + p.val; rw [e0]; omega
  | ⟨1, _⟩ => show win1_1.index t (1 : Fin 2) * 1 + 1 * 0 = 0; rw [e1]

/-- The weights' block is the whole matrix. -/
theorem blk1_weight (c : Dev nD) (t : Fin cfg1.N) (k q : Fin 128) :
    iblk1 V c 2 t (ix2 k q) = V c main_arg3 (ix2 k q) := by
  obtain ⟨-, -, -, -, e0, e1, -⟩ := idx1 t
  show V c main_arg3 (((cfg1.win 2).blk t).view.emb (ix2 k q)) = V c main_arg3 (ix2 k q)
  refine congrArg (V c main_arg3) (funext fun a => Fin.ext ?_)
  match a with
  | ⟨0, _⟩ => show win1_2.index t (0 : Fin 2) * 128 + 1 * k.val = k.val; rw [e0]; omega
  | ⟨1, _⟩ => show win1_2.index t (1 : Fin 2) * 128 + 1 * q.val = q.val; rw [e1]; omega

/-- The bias's block is the whole vector. -/
theorem blk1_bias (c : Dev nD) (t : Fin cfg1.N) (q : Fin 128) :
    iblk1 V c 3 t (ix1 q) = V c main_arg4 (ix1 q) := by
  obtain ⟨-, -, -, -, -, -, e0, -⟩ := idx1 t
  show V c main_arg4 (((cfg1.win 3).blk t).view.emb (ix1 q)) = V c main_arg4 (ix1 q)
  refine congrArg (V c main_arg4) (funext fun a => Fin.ext ?_)
  match a with
  | ⟨0, _⟩ => show win1_3.index t (0 : Fin 1) * 128 + 1 * q.val = q.val; rw [e0]; omega

/-- An element of the output's block at `t` sits at row `5000·t + p` of the output. -/
theorem emb1_out (t : Fin cfg1.N) (p : Fin 5000) (q : Fin 128) :
    ((cfg1.win 4).blk t).view.emb (ix2 p q) = (ix2 (row t p) q : S100000x128.Idx) := by
  obtain ⟨-, -, -, -, -, -, -, e0, e1⟩ := idx1 t
  refine funext fun a => Fin.ext ?_
  match a with
  | ⟨0, _⟩ => show win1_4.index t (0 : Fin 2) * 5000 + 1 * p.val = t.val * 5000 + p.val; rw [e0]; omega
  | ⟨1, _⟩ => show win1_4.index t (1 : Fin 2) * 128 + 1 * q.val = q.val; rw [e1]; omega

/-- WHAT POINT `t` WRITES BACK is block `t` of the dense layer of the arrays the call finds. -/
theorem flushed1_eq (c : Dev nD) (t : Fin cfg1.N) :
    (dat1 V c).flushed 4 t = ((cfg1.win 4).blk t).view.read (Elt Ideal)
      (GraphConv.dense (V c main_v40) (V c main_v41) (V c main_arg3) (V c main_arg4)) := by
  show (cfg1.win 4).cut (grid1.coords t) ((dat1 V c).after 4 t) = _
  rw [after1_4, out1_eq]
  funext j
  obtain ⟨p, q, rfl⟩ : ∃ (p : Fin 5000) (q : Fin 128), j = ix2 p q := ⟨j 0, j 1, eq_ix2 j⟩
  show k1_pay1 (iblk1 V c 0 t) (iblk1 V c 1 t) (iblk1 V c 2 t) (iblk1 V c 3 t) (ix2 p q)
    = GraphConv.dense (V c main_v40) (V c main_v41) (V c main_arg3) (V c main_arg4) (((cfg1.win 4).blk t).view.emb (ix2 p q))
  rw [emb1_out t p q]
  refine (Block.pay_plain_at (iblk1 V c 0 t) (iblk1 V c 1 t) (iblk1 V c 2 t) (iblk1 V c 3 t) p q).trans ?_
  rw [GraphConv.dense_apply]
  unfold GraphConv.denseAt
  rw [blk1_scale V c t p, blk1_bias V c t q]
  refine congrArg (fun s => s + V c main_arg4 (ix1 q)) (Finset.sum_congr rfl fun k _ => ?_)
  rw [blk1_feat V c t p k, blk1_weight V c t k q]

/-- An index of the output is in point `t`'s block iff each coordinate is in the block's range on its axis. -/
theorem mem_blk1 (t : Fin cfg1.N) (i : S100000x128.Idx) :
    i ∈ ((cfg1.win 4).blk t).view.set ↔ ∀ a : Fin 2, win1_4.index t a * S5000x128.size a ≤ (i a).val ∧ (i a).val < win1_4.index t a * S5000x128.size a + S5000x128.size a := by
  show i ∈ ((View.whole main_v42).slice (win1_4.rect t)).set ↔ _
  rw [View.set_slice_whole, Rect.mem_set_unit]
  exact Iff.rfl

/-- Every index of the output lies in the block of the point `row / 5000`. -/
theorem cover1 (i : S100000x128.Idx) :
    ∃ t : Fin cfg1.N, (cfg1.win 4).flush t = true ∧ i ∈ ((cfg1.win 4).blk t).view.set := by
  have hi0 : (i 0).val < 100000 := (i 0).isLt
  have hi1 : (i 1).val < 128 := (i 1).isLt
  have ht : (i 0).val / 5000 < cfg1.N := by show (i 0).val / 5000 < 20; omega
  obtain ⟨-, -, -, -, -, -, -, e0, e1⟩ := idx1 ⟨(i 0).val / 5000, ht⟩
  refine ⟨⟨(i 0).val / 5000, ht⟩, flush1_4 _, ?_⟩
  rw [mem_blk1]
  intro a
  match a with
  | ⟨0, _⟩ =>
    show win1_4.index ⟨(i 0).val / 5000, ht⟩ (0 : Fin 2) * 5000 ≤ (i 0).val ∧ (i 0).val < win1_4.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win1_4.index ⟨(i 0).val / 5000, ht⟩ (1 : Fin 2) * 128 ≤ (i 1).val ∧ (i 1).val < win1_4.index ⟨(i 0).val / 5000, ht⟩ (1 : Fin 2) * 128 + 128
    rw [e1]; omega

/-- THE OUTPUT ARRAY after the second call: the dense layer of the arrays the call finds. -/
theorem array1 (c : Dev nD) :
    (dat1 V c).arrAt 4 cfg1.N = GraphConv.dense (V c main_v40) (V c main_v41) (V c main_arg3) (V c main_arg4) :=
  (dat1 V c).arrAt_eq_of_cover 4 _ (fun t _ => flushed1_eq V c t) cover1

end Second

end Cert.KernelIdeal.Region

end
-- ==== Proof.KernelValue.lean ====
/-
  The kernel program's result as one function of its seven arguments.

  @main computes, on the host, each node's out-degree and in-degree (a scatter-add of ones at the edges' endpoints),
  clips them below at 1 and raises them to the power -1/2. A graph-convolution layer then scales the features by the
  source factor, gathers them along the edges, scatter-adds them at the edges' destinations (`aggregate`), and hands the
  result to a pallas_call together with the destination factor as a column, the weights and the bias; the call leaves
  the dense layer of those four arrays (`KernelRegion.lean`), rectified in the first layer. The second layer aggregates
  the first layer's output in the same way and runs the second call.

  The buffer contents at each boundary of @main are a fold of the host operations over the contents before; reading
  that fold at the buffers a call takes gives the host operations' composed term. Those reads are the same for every
  float instance and are stated for any, the operations staying closed; a call's output array is read by the region's
  lemma, on the extended reals, at the contents the call is entered with. Nothing here opens the scatter or the gather:
  the same operations, applied to equal arrays, stand on the reference's side. The shape of the whole computation is
  `program`, with the column-forming step and the two dense stages as parameters, so that the reference's term can be
  shown to be the same `program` of its own three pieces.
-/
import proofs.«143554_j74217034875214_1_alg».proof.Proof.KernelRegion
import Idealize.ShloMosaic.Lib.StableHlo.Run

set_option maxRecDepth 16384

noncomputable section

namespace Cert.KernelIdeal.Chain

open Cert.KernelIdeal Cert.KernelIdeal.Gen Idealize.ShloMosaic Idealize.ShloMosaic.TcCoe Idealize.SL.Sem Idealize.ShloMosaic.StableHlo

section AnyFloat

variable {F : FTy → Type} [FloatOps F]

/-! ## The host operations both layers share -/

/-- One number per node from a list of edge endpoints: how many edges end at the node, at least 1, to the power -1/2. -/
def invSqrtDeg (idx : (⟨S1600000, .i32⟩ : BufTy).Contents (Elt F)) : (⟨S100000, .f32⟩ : BufTy).Contents (Elt F) :=
  Host.powf (F := F)
    (maximumf (broadcastInDim S100000 ![] bcast_S_S100000 (id (constant (F := F) S_ .f32 0x3F800000#32)))
      (Host.scatterAdd (F := F) scatter_S100000_S1600000x1_S1600000_n_0_0_1
        (broadcastInDim S100000 ![] bcast_S_S100000 (constant (F := F) S_ .f32 0x00000000#32))
        (broadcastInDim S1600000x1 ![0] bcast_S1600000_S1600000x1_0 idx)
        (broadcastInDim S1600000 ![] bcast_S_S1600000 (constant (F := F) S_ .f32 0x3F800000#32))))
    (broadcastInDim S100000 ![] bcast_S_S100000 (constant (F := F) S_ .f32 0xBF000000#32))

/-- The sparse stage of a layer: scale node `v`'s features by `s v`, read them at every edge's source (a negative index
    counted from the end), and add them up at the edge's destination. -/
def aggregate (x : (⟨S100000x128, .f32⟩ : BufTy).Contents (Elt F)) (s : (⟨S100000, .f32⟩ : BufTy).Contents (Elt F))
    (src dst : (⟨S1600000, .i32⟩ : BufTy).Contents (Elt F)) : (⟨S100000x128, .f32⟩ : BufTy).Contents (Elt F) :=
  Host.scatterAdd (F := F) scatter_S100000x128_S1600000x1_S1600000x128_1_0_0_1
    (broadcastInDim S100000x128 ![] bcast_S_S100000x128 (constant (F := F) S_ .f32 0x00000000#32))
    (broadcastInDim S1600000x1 ![0] bcast_S1600000_S1600000x1_0 dst)
    (Host.gather gather_S100000x128_S1600000x1_S1600000x128_1_0_n_n_0_1_1128
      (mulf (F := F) x (broadcastInDim S100000x128 ![0, 1] bcast_S100000x1_S100000x128_0_1
        (broadcastInDim S100000x1 ![0] bcast_S100000_S100000x1_0 s)))
      (broadcastInDim S1600000x1 ![0] bcast_S1600000_S1600000x1_0
        (select (cmpi .slt src (broadcastInDim S1600000 ![] bcast_S_S1600000 (constantI S_ 32 0#32)))
          (addi src (broadcastInDim S1600000 ![] bcast_S_S1600000 (constantI S_ 32 100000#32)))
          src)))

/-- The destination factor as the column a call takes: the vector reshaped. -/
def column (s : (⟨S100000, .f32⟩ : BufTy).Contents (Elt F)) : (⟨S100000x1, .f32⟩ : BufTy).Contents (Elt F) :=
  shapeCast S100000x1 s shapeCasts_S100000_S100000x1

/-- The whole computation's shape: two layers, each the sparse stage followed by a dense stage on the aggregated
    features, the destination factor as a column, the layer's weights and bias. The column-forming step and the two
    dense stages are parameters. -/
def program (col : (⟨S100000, .f32⟩ : BufTy).Contents (Elt F) → (⟨S100000x1, .f32⟩ : BufTy).Contents (Elt F))
    (dense1 dense2 : (⟨S100000x128, .f32⟩ : BufTy).Contents (Elt F) → (⟨S100000x1, .f32⟩ : BufTy).Contents (Elt F) → (⟨S128x128, .f32⟩ : BufTy).Contents (Elt F) → (⟨S128, .f32⟩ : BufTy).Contents (Elt F) → (⟨S100000x128, .f32⟩ : BufTy).Contents (Elt F))
    (h : (⟨S100000x128, .f32⟩ : BufTy).Contents (Elt F)) (w1 : (⟨S128x128, .f32⟩ : BufTy).Contents (Elt F)) (b1 : (⟨S128, .f32⟩ : BufTy).Contents (Elt F))
    (w2 : (⟨S128x128, .f32⟩ : BufTy).Contents (Elt F)) (b2 : (⟨S128, .f32⟩ : BufTy).Contents (Elt F)) (src dst : (⟨S1600000, .i32⟩ : BufTy).Contents (Elt F)) : (⟨S100000x128, .f32⟩ : BufTy).Contents (Elt F) :=
  dense2 (aggregate (dense1 (aggregate h (invSqrtDeg src) src dst) (col (invSqrtDeg dst)) w1 b1) (invSqrtDeg src) src dst)
    (col (invSqrtDeg dst)) w2 b2

variable (m : (ℓ : Loc nD τ sig) → Buf (Elt F) ℓ) (ρ : Dev nD → PrngReg) (c : Dev nD)

/-! ## The first call's entry contents -/

set_option maxHeartbeats 4000000 in
theorem entry0_feat : V5 m ρ c main_v25
    = aggregate (m ((c : Thread nD τ).loc main_arg0)) (invSqrtDeg (m ((c : Thread nD τ).loc main_arg5)))
        (m ((c : Thread nD τ).loc main_arg5)) (m ((c : Thread nD τ).loc main_arg6)) := by
  show W5 m ρ c (Proc.devRef .tc main_v25) = _
  after_results_simp
  rfl

set_option maxHeartbeats 4000000 in
theorem entry0_scale : V5 m ρ c main_v26 = column (invSqrtDeg (m ((c : Thread nD τ).loc main_arg6))) := by
  show W5 m ρ c (Proc.devRef .tc main_v26) = _
  after_results_simp
  rfl

set_option maxHeartbeats 4000000 in
theorem entry0_weight : V5 m ρ c main_arg1 = m ((c : Thread nD τ).loc main_arg1) := by
  show W5 m ρ c (Proc.devRef .tc main_arg1) = _
  after_results_simp

set_option maxHeartbeats 4000000 in
theorem entry0_bias : V5 m ρ c main_arg2 = m ((c : Thread nD τ).loc main_arg2) := by
  show W5 m ρ c (Proc.devRef .tc main_arg2) = _
  after_results_simp

/-! ## What the first call leaves untouched -/

set_option maxHeartbeats 4000000 in
theorem kept_srcFactor : W6 m ρ c (Proc.devRef .tc main_v10) = invSqrtDeg (m ((c : Thread nD τ).loc main_arg5)) := by
  refine (W6_of_ne m ρ c main_v10 (by decide)).trans ?_
  after_results_simp
  rfl

set_option maxHeartbeats 4000000 in
theorem kept_dstFactor : W6 m ρ c (Proc.devRef .tc main_v12) = invSqrtDeg (m ((c : Thread nD τ).loc main_arg6)) := by
  refine (W6_of_ne m ρ c main_v12 (by decide)).trans ?_
  after_results_simp
  rfl

set_option maxHeartbeats 4000000 in
theorem kept_src : W6 m ρ c (Proc.devRef .tc main_arg5) = m ((c : Thread nD τ).loc main_arg5) := by
  refine (W6_of_ne m ρ c main_arg5 (by decide)).trans ?_
  after_results_simp

set_option maxHeartbeats 4000000 in
theorem kept_dst : W6 m ρ c (Proc.devRef .tc main_arg6) = m ((c : Thread nD τ).loc main_arg6) := by
  refine (W6_of_ne m ρ c main_arg6 (by decide)).trans ?_
  after_results_simp

set_option maxHeartbeats 4000000 in
theorem kept_weight2 : W6 m ρ c (Proc.devRef .tc main_arg3) = m ((c : Thread nD τ).loc main_arg3) := by
  refine (W6_of_ne m ρ c main_arg3 (by decide)).trans ?_
  after_results_simp

set_option maxHeartbeats 4000000 in
theorem kept_bias2 : W6 m ρ c (Proc.devRef .tc main_arg4) = m ((c : Thread nD τ).loc main_arg4) := by
  refine (W6_of_ne m ρ c main_arg4 (by decide)).trans ?_
  after_results_simp

/-! ## The second call's entry contents -/

set_option maxHeartbeats 4000000 in
theorem entry1_feat : V7 m ρ c main_v40
    = aggregate (W6 m ρ c (Proc.devRef .tc main_v27)) (W6 m ρ c (Proc.devRef .tc main_v10))
        (W6 m ρ c (Proc.devRef .tc main_arg5)) (W6 m ρ c (Proc.devRef .tc main_arg6)) := by
  show W7 m ρ c (Proc.devRef .tc main_v40) = _
  after_results_simp
  rfl

set_option maxHeartbeats 4000000 in
theorem entry1_scale : V7 m ρ c main_v41 = column (W6 m ρ c (Proc.devRef .tc main_v12)) := by
  show W7 m ρ c (Proc.devRef .tc main_v41) = _
  after_results_simp
  rfl

set_option maxHeartbeats 4000000 in
theorem entry1_weight : V7 m ρ c main_arg3 = W6 m ρ c (Proc.devRef .tc main_arg3) := by
  show W7 m ρ c (Proc.devRef .tc main_arg3) = _
  after_results_simp

set_option maxHeartbeats 4000000 in
theorem entry1_bias : V7 m ρ c main_arg4 = W6 m ρ c (Proc.devRef .tc main_arg4) := by
  show W7 m ρ c (Proc.devRef .tc main_arg4) = _
  after_results_simp

end AnyFloat

/-! ## On the extended reals: the two calls' outputs, and the result -/

section AtIdeal

variable (m : (ℓ : Loc nD τ sig) → Buf (Elt Ideal) ℓ) (ρ : Dev nD → PrngReg) (c : Dev nD)

/-- The first layer's output: what the first call leaves in `main_v27`. -/
theorem layer1 : W6 m ρ c (Proc.devRef .tc main_v27)
    = GraphConv.denseRelu
        (aggregate (m ((c : Thread nD τ).loc main_arg0)) (invSqrtDeg (m ((c : Thread nD τ).loc main_arg5)))
          (m ((c : Thread nD τ).loc main_arg5)) (m ((c : Thread nD τ).loc main_arg6)))
        (column (invSqrtDeg (m ((c : Thread nD τ).loc main_arg6))))
        (m ((c : Thread nD τ).loc main_arg1)) (m ((c : Thread nD τ).loc main_arg2)) := by
  refine (W6_arr m ρ c 4).trans ?_
  rw [Region.array0 (V5 m ρ) c, entry0_feat, entry0_scale, entry0_weight, entry0_bias]

/-- What @main leaves in its result buffer: the two layers of its seven arguments. -/
theorem result_eq : W8 m ρ c (Proc.devRef .tc main_v42)
    = program column GraphConv.denseRelu GraphConv.dense
        (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) := by
  refine (W8_arr m ρ c 4).trans ?_
  rw [Region.array1 (V7 m ρ) c, entry1_feat, entry1_scale, entry1_weight, entry1_bias,
    layer1, kept_srcFactor, kept_dstFactor, kept_src, kept_dst, kept_weight2, kept_bias2]
  rfl

end AtIdeal

end Cert.KernelIdeal.Chain

end
-- ==== Proof.RefLayer.lean ====
/-
  The reference's dense stage, as it is printed, is the dense layer of `DenseLayer.lean`.

  The reference multiplies the aggregated features by the per-node scale column broadcast along the features, contracts
  the feature axis against the weights with one `dot_general`, and adds the bias broadcast first to a row and then over
  all rows; its first layer then takes the elementwise maximum with a zero array. On the extended reals the
  `dot_general` is the plain sum over the contracted coordinate, so entry `(i, j)` is
  `(∑ k, (x[i, k] · n[i, 0]) · w[k, j]) + b[j]`, rectified or not: the same expression the kernel's blocks compute.
  Stated for arbitrary operands, so that it applies to both layers whatever feeds them.
-/
import proofs.«143554_j74217034875214_1_alg».proof.Proof.Gen.ReferenceIdeal.Read
import proofs.«143554_j74217034875214_1_alg».proof.Proof.DenseLayer

noncomputable section

open scoped BigOperators

namespace Cert.ReferenceIdeal.Layer

open Cert.ReferenceIdeal Cert.ReferenceIdeal.Gen Idealize.ShloMosaic Idealize.ShloMosaic.ValueIdx

/-- The reference's `dot_general` at `(i, j)`: row `i` of the left operand against column `j` of the right one. -/
theorem dot_at (l : FVec Ideal S100000x128 .f32) (r : FVec Ideal S128x128 .f32) (i : Fin 100000) (j : Fin 128) :
    Host.dotGeneral dot_S100000x128_S128x128_S100000x128_1_0_0_1_n_n none l r (ix2 i j)
      = ∑ k : Fin 128, l (ix2 i k) * r (ix2 k j) := by
  simp only [Host.dotGeneral]
  rw [Ideal.dotGeneral_apply, ← Equiv.sum_comp (contrEquiv1 dot_S100000x128_S128x128_S100000x128_1_0_0_1_n_n 128 rfl rfl).symm]
  refine Finset.sum_congr rfl fun k _ => ?_
  have hk := contrEquiv1_symm_val dot_S100000x128_S128x128_S100000x128_1_0_0_1_n_n 128 rfl rfl k
  have el : dot_S100000x128_S128x128_S100000x128_1_0_0_1_n_n.lhsIdx (ix2 i j) ((contrEquiv1 dot_S100000x128_S128x128_S100000x128_1_0_0_1_n_n 128 rfl rfl).symm k) = ix2 i k := funext fun a => Fin.ext (by
    match a with
    | ⟨0, _⟩ => exact Read.lhs_main_v29_0 _ _
    | ⟨1, _⟩ => exact (Read.lhs_main_v29_1 _ _).trans hk)
  have er : dot_S100000x128_S128x128_S100000x128_1_0_0_1_n_n.rhsIdx (ix2 i j) ((contrEquiv1 dot_S100000x128_S128x128_S100000x128_1_0_0_1_n_n 128 rfl rfl).symm k) = ix2 k j := funext fun a => Fin.ext (by
    match a with
    | ⟨0, _⟩ => exact (Read.rhs_main_v29_0 _ _).trans hk
    | ⟨1, _⟩ => exact Read.rhs_main_v29_1 _ _)
  rw [el, er]

/-- The scale column broadcast along the features reads, at `(i, k)`, the column's entry for node `i`. -/
theorem col_bcast_at (n : FVec Ideal S100000x1 .f32) (h : S100000x1.BroadcastsInDim S100000x128 (![0, 1] : Fin 2 → Fin S100000x128.rank))
    (i : Fin 100000) (k : Fin 128) :
    broadcastInDim S100000x128 ![0, 1] h n (ix2 i k) = n (ix2 i (0 : Fin 1)) :=
  broadcastInDim_apply _ h n (ix2 i k) (ix2 i (0 : Fin 1)) (fun a => match a with
    | ⟨0, _⟩ => by show i.val = if (100000 : Nat) = 1 then 0 else i.val; rw [if_neg (by decide)]
    | ⟨1, _⟩ => by show (0 : Nat) = if (1 : Nat) = 1 then 0 else k.val; rw [if_pos rfl])

/-- The bias broadcast to a row and then over all rows reads, at `(i, j)`, the bias at `j`. -/
theorem bias_bcast_at (b : FVec Ideal S128 .f32) (h1 : S128.BroadcastsInDim S1x128 (![1] : Fin 1 → Fin S1x128.rank))
    (h2 : S1x128.BroadcastsInDim S100000x128 (![0, 1] : Fin 2 → Fin S100000x128.rank)) (i : Fin 100000) (j : Fin 128) :
    broadcastInDim S100000x128 ![0, 1] h2 (broadcastInDim S1x128 ![1] h1 b) (ix2 i j) = b (ix1 j) := by
  rw [broadcastInDim_apply _ h2 (broadcastInDim S1x128 ![1] h1 b) (ix2 i j) (ix2 (0 : Fin 1) j) (fun a => match a with
    | ⟨0, _⟩ => by show (0 : Nat) = if (1 : Nat) = 1 then 0 else i.val; rw [if_pos rfl]
    | ⟨1, _⟩ => by show j.val = if (128 : Nat) = 1 then 0 else j.val; rw [if_neg (by decide)])]
  exact broadcastInDim_apply _ h1 b (ix2 (0 : Fin 1) j) (ix1 j) (fun a => match a with
    | ⟨0, _⟩ => by show j.val = if (128 : Nat) = 1 then 0 else j.val; rw [if_neg (by decide)])

/-- The zero array of the rectification reads `0` everywhere. -/
theorem zero_bcast_at (h : S_.BroadcastsInDim S100000x128 (![] : Fin 0 → Fin S100000x128.rank)) (y : S100000x128.Idx) :
    broadcastInDim S100000x128 ![] h (constant (F := Ideal) S_ .f32 0x00000000#32) y = 0 := by
  rw [broadcastInDim_apply _ h (constant (F := Ideal) S_ .f32 0x00000000#32) y ix0 (fun a => a.elim0)]
  exact Ideal.ofBits_zero_f32

/-- The reference's second-layer dense stage is the dense layer. -/
theorem dense_eq (x : FVec Ideal S100000x128 .f32) (n : FVec Ideal S100000x1 .f32) (w : FVec Ideal S128x128 .f32) (b : FVec Ideal S128 .f32) :
    addf (Host.dotGeneral dot_S100000x128_S128x128_S100000x128_1_0_0_1_n_n none
        (mulf x (broadcastInDim S100000x128 ![0, 1] bcast_S100000x1_S100000x128_0_1 n)) w)
      (broadcastInDim S100000x128 ![0, 1] bcast_S1x128_S100000x128_0_1 (broadcastInDim S1x128 ![1] bcast_S128_S1x128_1 b))
      = GraphConv.dense x n w b := by
  funext y
  obtain ⟨i, j, rfl⟩ : ∃ (i : Fin 100000) (j : Fin 128), y = ix2 i j := ⟨y 0, y 1, eq_ix2 y⟩
  rw [addf_apply, dot_at, bias_bcast_at, GraphConv.dense_apply]
  unfold GraphConv.denseAt
  refine congrArg (· + b (ix1 j)) (Finset.sum_congr rfl fun k _ => ?_)
  rw [mulf_apply, col_bcast_at]

/-- The reference's first-layer dense stage with its rectification is the rectified dense layer. -/
theorem denseRelu_eq (x : FVec Ideal S100000x128 .f32) (n : FVec Ideal S100000x1 .f32) (w : FVec Ideal S128x128 .f32) (b : FVec Ideal S128 .f32) :
    maximumf (addf (Host.dotGeneral dot_S100000x128_S128x128_S100000x128_1_0_0_1_n_n none
        (mulf x (broadcastInDim S100000x128 ![0, 1] bcast_S100000x1_S100000x128_0_1 n)) w)
      (broadcastInDim S100000x128 ![0, 1] bcast_S1x128_S100000x128_0_1 (broadcastInDim S1x128 ![1] bcast_S128_S1x128_1 b)))
      (broadcastInDim S100000x128 ![] bcast_S_S100000x128 (constant (F := Ideal) S_ .f32 0x00000000#32))
      = GraphConv.denseRelu x n w b := by
  funext y
  rw [maximumf_apply, dense_eq, zero_bcast_at]
  rfl

end Cert.ReferenceIdeal.Layer

end
-- ==== Proof.Bridge.lean ====
/-
  The reference's result is the kernel program's result of the same seven arrays.

  The reference's composed term has the same host operations around its two dense stages as the kernel program has
  around its two pallas_calls: the degree factors, and per layer the scaling, the gather along the edges and the
  scatter-add at their destinations. So it is the same `program` (`KernelValue.lean`) of three pieces of its own: its
  dense stage, with and without rectification, and its way of making the destination factor a column, a
  `broadcast_in_dim` of `[100000]` to `[100000, 1]` where the kernel program reshapes. That is a statement about how the
  operations are composed, true for every float instance, the operations staying closed. On the extended reals each
  piece is the kernel side's: the dense stages are the dense layer (`RefLayer.lean`), and both columns hold entry `i` of
  the vector at `(i, 0)`. Nothing of the scatter or the gather is opened.
-/
import proofs.«143554_j74217034875214_1_alg».proof.Proof.KernelValue
import proofs.«143554_j74217034875214_1_alg».proof.Proof.RefLayer

set_option maxRecDepth 16384

noncomputable section

namespace Cert.Bridge

open Idealize.ShloMosaic Idealize.ShloMosaic.TcCoe Idealize.ShloMosaic.ValueIdx Idealize.SL.Sem

section AnyFloat

variable {F : FTy → Type} [FloatOps F]

open Cert.ReferenceIdeal Cert.ReferenceIdeal.Gen in
/-- The reference's column of a per-node vector: a `broadcast_in_dim` that adds the unit axis. -/
def refColumn (s : (⟨Cert.ReferenceIdeal.S100000, .f32⟩ : BufTy).Contents (Elt F)) : (⟨Cert.ReferenceIdeal.S100000x1, .f32⟩ : BufTy).Contents (Elt F) :=
  broadcastInDim S100000x1 ![0] bcast_S100000_S100000x1_0 s

open Cert.ReferenceIdeal Cert.ReferenceIdeal.Gen in
/-- The reference's dense stage: scale by the column broadcast along the features, one `dot_general` with the weights,
    the bias broadcast to a row and over the rows. -/
def refDense (x : (⟨Cert.ReferenceIdeal.S100000x128, .f32⟩ : BufTy).Contents (Elt F)) (n : (⟨Cert.ReferenceIdeal.S100000x1, .f32⟩ : BufTy).Contents (Elt F)) (w : (⟨Cert.ReferenceIdeal.S128x128, .f32⟩ : BufTy).Contents (Elt F))
    (b : (⟨Cert.ReferenceIdeal.S128, .f32⟩ : BufTy).Contents (Elt F)) : (⟨Cert.ReferenceIdeal.S100000x128, .f32⟩ : BufTy).Contents (Elt F) :=
  addf (F := F) (Host.dotGeneral (F := F) dot_S100000x128_S128x128_S100000x128_1_0_0_1_n_n none
      (mulf (F := F) x (broadcastInDim S100000x128 ![0, 1] bcast_S100000x1_S100000x128_0_1 n)) w)
    (broadcastInDim S100000x128 ![0, 1] bcast_S1x128_S100000x128_0_1 (broadcastInDim S1x128 ![1] bcast_S128_S1x128_1 b))

open Cert.ReferenceIdeal Cert.ReferenceIdeal.Gen in
/-- The reference's rectified dense stage: the maximum with a zero array. -/
def refDenseRelu (x : (⟨Cert.ReferenceIdeal.S100000x128, .f32⟩ : BufTy).Contents (Elt F)) (n : (⟨Cert.ReferenceIdeal.S100000x1, .f32⟩ : BufTy).Contents (Elt F)) (w : (⟨Cert.ReferenceIdeal.S128x128, .f32⟩ : BufTy).Contents (Elt F))
    (b : (⟨Cert.ReferenceIdeal.S128, .f32⟩ : BufTy).Contents (Elt F)) : (⟨Cert.ReferenceIdeal.S100000x128, .f32⟩ : BufTy).Contents (Elt F) :=
  maximumf (F := F) (addf (F := F) (Host.dotGeneral (F := F) dot_S100000x128_S128x128_S100000x128_1_0_0_1_n_n none
      (mulf (F := F) x (broadcastInDim S100000x128 ![0, 1] bcast_S100000x1_S100000x128_0_1 n)) w)
    (broadcastInDim S100000x128 ![0, 1] bcast_S1x128_S100000x128_0_1 (broadcastInDim S1x128 ![1] bcast_S128_S1x128_1 b)))
    (broadcastInDim S100000x128 ![] bcast_S_S100000x128 (constant (F := F) S_ .f32 0x00000000#32))

set_option maxHeartbeats 4000000 in
/-- The reference's result term is the `program` of its own column-forming step and dense stages, of its memory's
    argument arrays. -/
theorem ref_program (m' : (ℓ : Loc Cert.ReferenceIdeal.nD Cert.ReferenceIdeal.τ Cert.ReferenceIdeal.sig) → Buf (Elt F) ℓ) (c : Dev Cert.ReferenceIdeal.nD) :
    Cert.ReferenceIdeal.Value.res_main_v53 (F := F) m' c
      = Cert.KernelIdeal.Chain.program (F := F) refColumn refDenseRelu refDense
          (m' ((c.tc : Thread Cert.ReferenceIdeal.nD Cert.ReferenceIdeal.τ).loc Cert.ReferenceIdeal.main_arg0))
          (m' ((c.tc : Thread Cert.ReferenceIdeal.nD Cert.ReferenceIdeal.τ).loc Cert.ReferenceIdeal.main_arg1))
          (m' ((c.tc : Thread Cert.ReferenceIdeal.nD Cert.ReferenceIdeal.τ).loc Cert.ReferenceIdeal.main_arg2))
          (m' ((c.tc : Thread Cert.ReferenceIdeal.nD Cert.ReferenceIdeal.τ).loc Cert.ReferenceIdeal.main_arg3))
          (m' ((c.tc : Thread Cert.ReferenceIdeal.nD Cert.ReferenceIdeal.τ).loc Cert.ReferenceIdeal.main_arg4))
          (m' ((c.tc : Thread Cert.ReferenceIdeal.nD Cert.ReferenceIdeal.τ).loc Cert.ReferenceIdeal.main_arg5))
          (m' ((c.tc : Thread Cert.ReferenceIdeal.nD Cert.ReferenceIdeal.τ).loc Cert.ReferenceIdeal.main_arg6)) := by
  unfold Cert.ReferenceIdeal.Value.res_main_v53
  rfl

end AnyFloat

/-! ## On the extended reals the reference's pieces are the kernel side's -/

/-- A vector made a column by `broadcast_in_dim` is the vector reshaped to a column: both hold entry `i` at `(i, 0)`. -/
theorem refColumn_eq : refColumn (F := Ideal) = Cert.KernelIdeal.Chain.column (F := Ideal) := by
  funext v y
  obtain ⟨i, z, rfl⟩ : ∃ (i : Fin 100000) (z : Fin 1), y = ix2 i z := ⟨y 0, y 1, eq_ix2 y⟩
  unfold refColumn Cert.KernelIdeal.Chain.column
  rw [broadcastInDim_apply _ _ v (ix2 i z) (ix1 i) (fun a => match a with
    | ⟨0, _⟩ => by show i.val = if (100000 : Nat) = 1 then 0 else i.val; rw [if_neg (by decide)])]
  refine (shapeCast_apply v _ (ix2 i z) (ix1 i) ?_).symm
  rw [Shape.rowMajor_val_one, Shape.rowMajor_val_two]
  show i.val = i.val * 1 + z.val
  have := z.isLt
  omega

theorem refDense_eq : refDense (F := Ideal) = GraphConv.dense := by
  funext x n w b
  unfold refDense
  exact Cert.ReferenceIdeal.Layer.dense_eq x n w b

theorem refDenseRelu_eq : refDenseRelu (F := Ideal) = GraphConv.denseRelu := by
  funext x n w b
  unfold refDenseRelu
  exact Cert.ReferenceIdeal.Layer.denseRelu_eq x n w b

/-- The reference's result term, of any memory, is the kernel program's result of that memory's argument arrays. -/
theorem ref_result (m' : (ℓ : Loc Cert.ReferenceIdeal.nD Cert.ReferenceIdeal.τ Cert.ReferenceIdeal.sig) → Buf (Elt Ideal) ℓ) (c : Dev Cert.ReferenceIdeal.nD) :
    Cert.ReferenceIdeal.Value.res_main_v53 (F := Ideal) m' c
      = Cert.KernelIdeal.Chain.program (F := Ideal) Cert.KernelIdeal.Chain.column GraphConv.denseRelu GraphConv.dense
          (m' ((c.tc : Thread Cert.ReferenceIdeal.nD Cert.ReferenceIdeal.τ).loc Cert.ReferenceIdeal.main_arg0))
          (m' ((c.tc : Thread Cert.ReferenceIdeal.nD Cert.ReferenceIdeal.τ).loc Cert.ReferenceIdeal.main_arg1))
          (m' ((c.tc : Thread Cert.ReferenceIdeal.nD Cert.ReferenceIdeal.τ).loc Cert.ReferenceIdeal.main_arg2))
          (m' ((c.tc : Thread Cert.ReferenceIdeal.nD Cert.ReferenceIdeal.τ).loc Cert.ReferenceIdeal.main_arg3))
          (m' ((c.tc : Thread Cert.ReferenceIdeal.nD Cert.ReferenceIdeal.τ).loc Cert.ReferenceIdeal.main_arg4))
          (m' ((c.tc : Thread Cert.ReferenceIdeal.nD Cert.ReferenceIdeal.τ).loc Cert.ReferenceIdeal.main_arg5))
          (m' ((c.tc : Thread Cert.ReferenceIdeal.nD Cert.ReferenceIdeal.τ).loc Cert.ReferenceIdeal.main_arg6)) := by
  rw [ref_program m' c, refColumn_eq, refDenseRelu_eq, refDense_eq]

end Cert.Bridge

end
-- ==== Proof.lean ====
/-
  A two-layer graph convolution: the kernel program against its jnp reference, on the extended reals.

  Both programs compute, per layer, `D_in^(-1/2) · A · (D_out^(-1/2) · x) · W + b` over a graph of 100000 nodes and
  1600000 edges, the first layer rectified: the node degrees by a scatter-add of ones (clipped below at 1, raised to
  -1/2), the product with the adjacency matrix as a gather along the edges followed by a scatter-add at their
  destinations, and then the dense stage — scale each aggregated row by the destination factor, multiply into the
  weights, add the bias. The two programs share the sparse stage operation for operation; they differ in the dense
  stage, which the reference does with one `dot_general` over the whole array and the kernel program with a
  pallas_call over twenty row blocks of 5000 nodes (rounding the factors to bf16, which is the identity on the extended
  reals, and accumulating into zeros).

  The proof: each pallas_call's output array is the dense layer of the arrays it is entered with, as one whole-array
  function (`KernelRegion.lean` over `KernelBlock.lean`); the kernel program's run, with the result buffer kept in its
  post, then gives the result as the two layers of the seven arguments (`KernelRun.lean`, `KernelValue.lean`); the
  reference's run gives a term whose two dense stages are the same dense layer (`RefLayer.lean`), around which stand
  the same host operations on the same arrays (`Bridge.lean`). Only re-indexing of a finite sum is used, so the
  precondition (finite inputs) is never opened. The idealization rewrote nothing, so `preserves` is `True`.
-/
import proofs.«143554_j74217034875214_1_alg».proof.Defs
import proofs.«143554_j74217034875214_1_alg».proof.Proof.Gen.Kernel
import proofs.«143554_j74217034875214_1_alg».proof.Proof.Gen.Kernel.Skeleton
import proofs.«143554_j74217034875214_1_alg».proof.Proof.Gen.Kernel.Launch
import proofs.«143554_j74217034875214_1_alg».proof.Proof.Gen.Kernel.Points
import proofs.«143554_j74217034875214_1_alg».proof.Proof.Gen.Kernel.Frame
import proofs.«143554_j74217034875214_1_alg».proof.Proof.Gen.KernelIdeal
import proofs.«143554_j74217034875214_1_alg».proof.Proof.Gen.KernelIdeal.Skeleton
import proofs.«143554_j74217034875214_1_alg».proof.Proof.Gen.KernelIdeal.Launch
import proofs.«143554_j74217034875214_1_alg».proof.Proof.Gen.KernelIdeal.Points
import proofs.«143554_j74217034875214_1_alg».proof.Proof.Gen.KernelIdeal.Frame
import proofs.«143554_j74217034875214_1_alg».proof.Proof.Gen.ReferenceIdeal
import proofs.«143554_j74217034875214_1_alg».proof.Proof.Gen.Pre_finite_inputs
import proofs.«143554_j74217034875214_1_alg».proof.Proof.Gen.ReferenceIdeal.Run
import proofs.«143554_j74217034875214_1_alg».proof.Proof.Gen.ReferenceIdeal.Read
import proofs.«143554_j74217034875214_1_alg».proof.Proof.KernelRun
import proofs.«143554_j74217034875214_1_alg».proof.Proof.KernelValue
import proofs.«143554_j74217034875214_1_alg».proof.Proof.Bridge
import Idealize.ShloMosaic.Adequacy
import Idealize.ShloMosaic.Init

noncomputable section

namespace Cert.Proof

open Idealize.ShloMosaic Idealize.SL.Sem

/-- The word-level kernel program runs and leaves its arguments as launched. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the seven arguments both programs end with the two layers of those arguments in their
    result buffers. -/
theorem algebraic : Cert.algebraic_KernelIdeal_ReferenceIdeal := by
  intro m ρ m' ρ' _ hagree
  refine ⟨fun c => Cert.KernelIdeal.Chain.program (F := Ideal) Cert.KernelIdeal.Chain.column GraphConv.denseRelu GraphConv.dense
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6)), ?_, ?_⟩
  · exact (θ_run Cert.KernelIdeal.defs _ _).mono
      (fun _ h c => ⟨(h c).1.trans (Cert.KernelIdeal.Chain.result_eq m ρ c), (h c).2⟩)
      (Cert.KernelIdeal.RunResult.run_result (F := Ideal) m ρ)
  · refine (θ_run Cert.ReferenceIdeal.defs _ _).mono (fun _ h c => ⟨(h c).1.trans ?_, (h c).2⟩)
      (Cert.ReferenceIdeal.Value.run (F := Ideal) m' ρ')
    have e := Cert.Bridge.ref_result m' c
    rw [(hagree c).1, (hagree c).2.1, (hagree c).2.2.1, (hagree c).2.2.2.1, (hagree c).2.2.2.2.1,
      (hagree c).2.2.2.2.2.1, (hagree c).2.2.2.2.2.2] at e
    exact e

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
